-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8 : Shape := ⟨2, ![16384, 8]⟩
abbrev S1024x8 : Shape := ⟨2, ![1024, 8]⟩
abbrev S1024x1024 : Shape := ⟨2, ![1024, 1024]⟩
abbrev S_ : Shape := ⟨0, ![]⟩

class Facts : Prop where
  bcast_S_S16384x8 : S_.BroadcastsInDim S16384x8 (![] : Fin 0 → Fin S16384x8.rank)
  reducesTo_S16384x8_S_d0_1 : S16384x8.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x8 .f32) (main_arg1 : FVec F S1024x8 .f32) (main_arg2 : FVec F S1024x1024 .f32) : IVec S_ 1 :=
  let main_v0 : FVec F S16384x8 .f32 := Host.absf main_arg0
  let main_cst : FVec F S_ .f32 := constant S_ .f32 0x7F800000#32
  let main_v1 : FVec F S16384x8 .f32 := broadcastInDim S16384x8 ![] bcast_S_S16384x8 main_cst
  let main_v2 : IVec S16384x8 1 := cmpf .olt main_v0 main_v1
  let main_c : IVec S_ 1 := constantI S_ 1 1#1
  let main_v3 : IVec S_ 1 := (fun x v => Host.reduce IntOp.andi x v reducesTo_S16384x8_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16384x8 : Shape := ⟨2, ![16384, 8]⟩
abbrev S1024x8 : Shape := ⟨2, ![1024, 8]⟩
abbrev S1024x1024 : Shape := ⟨2, ![1024, 1024]⟩
abbrev S_ : Shape := ⟨0, ![]⟩
abbrev S8 : Shape := ⟨1, ![8]⟩
abbrev S1x8 : Shape := ⟨2, ![1, 8]⟩
abbrev S8x1024 : Shape := ⟨2, ![8, 1024]⟩
abbrev S16384x1024 : Shape := ⟨2, ![16384, 1024]⟩
abbrev S1024x1 : Shape := ⟨2, ![1024, 1]⟩
abbrev S1x1024 : Shape := ⟨2, ![1, 1024]⟩

abbrev nBuf : Space → Nat
  | .hbm => 12
  | .vmem => 8
  | .smem => 0
  | _ => 0

abbrev bufTy : (tb : Table) → Fin (tcTables nBuf tb) → BufTy
  | .hbm, ⟨0, _⟩ => ⟨S16384x8, .f32⟩
  | .hbm, ⟨1, _⟩ => ⟨S1024x8, .f32⟩
  | .hbm, ⟨2, _⟩ => ⟨S1024x1024, .f32⟩
  | .hbm, ⟨3, _⟩ => ⟨S_, .f32⟩
  | .hbm, ⟨4, _⟩ => ⟨S8, .f32⟩
  | .hbm, ⟨5, _⟩ => ⟨S1x8, .f32⟩
  | .hbm, ⟨6, _⟩ => ⟨S_, .f32⟩
  | .hbm, ⟨7, _⟩ => ⟨S8, .f32⟩
  | .hbm, ⟨8, _⟩ => ⟨S1x8, .f32⟩
  | .hbm, ⟨9, _⟩ => ⟨S8x1024, .f32⟩
  | .hbm, ⟨10, _⟩ => ⟨S1024x1024, .bf16⟩
  | .hbm, ⟨11, _⟩ => ⟨S16384x1024, .f32⟩
  | .local _ .vmem, ⟨0, _⟩ => ⟨S1024x8, .f32⟩
  | .local _ .vmem, ⟨1, _⟩ => ⟨S1024x8, .f32⟩
  | .local _ .vmem, ⟨2, _⟩ => ⟨S8x1024, .f32⟩
  | .local _ .vmem, ⟨3, _⟩ => ⟨S1x8, .f32⟩
  | .local _ .vmem, ⟨4, _⟩ => ⟨S1x8, .f32⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S16384x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S16384x8_S8_d0 : S16384x8.ReducesTo [0] S8
  h_S_ : 0 < S_.numel
  bcast_S8_S1x8_1 : S8.BroadcastsInDim S1x8 (![1] : Fin 1 → Fin S1x8.rank)
  transposes_S1024x8_S8x1024_1_0 : S1024x8.Transposes [1, 0] S8x1024
  bitsLt_bf16_f32 : FTy.bits .bf16 < FTy.bits .f32
  inb_S1024x8_S1024x8_0_0 : ∀ a, (![0, 0] : Fin 2 → Nat) a + S1024x8.size a ≤ S1024x8.size a
  h_S1024x8 : 0 < S1024x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  slices_S1024x8_o0_0_S1024x1 : S1024x8.Slices ![0, 0] S1024x1
  inb_S8x1024_S1x1024_0_0 : ∀ a, (![0, 0] : Fin 2 → Nat) a + S1x1024.size a ≤ S8x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  slices_S1024x8_o0_1_S1024x1 : S1024x8.Slices ![0, 1] S1024x1
  inb_S8x1024_S1x1024_1_0 : ∀ a, (![1, 0] : Fin 2 → Nat) a + S1x1024.size a ≤ S8x1024.size a
  slices_S1024x8_o0_2_S1024x1 : S1024x8.Slices ![0, 2] S1024x1
  inb_S8x1024_S1x1024_2_0 : ∀ a, (![2, 0] : Fin 2 → Nat) a + S1x1024.size a ≤ S8x1024.size a
  slices_S1024x8_o0_3_S1024x1 : S1024x8.Slices ![0, 3] S1024x1
  inb_S8x1024_S1x1024_3_0 : ∀ a, (![3, 0] : Fin 2 → Nat) a + S1x1024.size a ≤ S8x1024.size a
  slices_S1024x8_o0_4_S1024x1 : S1024x8.Slices ![0, 4] S1024x1
  inb_S8x1024_S1x1024_4_0 : ∀ a, (![4, 0] : Fin 2 → Nat) a + S1x1024.size a ≤ S8x1024.size a
  slices_S1024x8_o0_5_S1024x1 : S1024x8.Slices ![0, 5] S1024x1
  inb_S8x1024_S1x1024_5_0 : ∀ a, (![5, 0] : Fin 2 → Nat) a + S1x1024.size a ≤ S8x1024.size a
  slices_S1024x8_o0_6_S1024x1 : S1024x8.Slices ![0, 6] S1024x1
  inb_S8x1024_S1x1024_6_0 : ∀ a, (![6, 0] : Fin 2 → Nat) a + S1x1024.size a ≤ S8x1024.size a
  slices_S1024x8_o0_7_S1024x1 : S1024x8.Slices ![0, 7] S1024x1
  inb_S8x1024_S1x1024_7_0 : ∀ a, (![7, 0] : Fin 2 → Nat) a + S1x1024.size a ≤ S8x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S16384x8.size a
  hwx0_0 : ∀ i : grid0.Coords, EltTy.bits .f32 = 32 ∨ (Rect.block (s := S16384x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x1024.size a
  hwx0_1 : ∀ i : grid0.Coords, EltTy.bits .f32 = 32 ∨ (Rect.block (s := S8x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .f32 = 32 ∨ (Rect.block (s := S16384x1024) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x8 : Shape := ⟨2, ![16384, 8]⟩
abbrev S1024x8 : Shape := ⟨2, ![1024, 8]⟩
abbrev S1024x1024 : Shape := ⟨2, ![1024, 1024]⟩
abbrev S_ : Shape := ⟨0, ![]⟩
abbrev S8 : Shape := ⟨1, ![8]⟩
abbrev S1x8 : Shape := ⟨2, ![1, 8]⟩
abbrev S16384x1x8 : Shape := ⟨3, ![16384, 1, 8]⟩
abbrev S1x1024x8 : Shape := ⟨3, ![1, 1024, 8]⟩
abbrev S16384x1024x8 : Shape := ⟨3, ![16384, 1024, 8]⟩
abbrev S16384x1024 : Shape := ⟨2, ![16384, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x8, .f32⟩
  | .hbm, ⟨1, _⟩ => ⟨S1024x8, .f32⟩
  | .hbm, ⟨2, _⟩ => ⟨S1024x1024, .f32⟩
  | .hbm, ⟨3, _⟩ => ⟨S_, .f32⟩
  | .hbm, ⟨4, _⟩ => ⟨S8, .f32⟩
  | .hbm, ⟨5, _⟩ => ⟨S1x8, .f32⟩
  | .hbm, ⟨6, _⟩ => ⟨S_, .f32⟩
  | .hbm, ⟨7, _⟩ => ⟨S8, .f32⟩
  | .hbm, ⟨8, _⟩ => ⟨S1x8, .f32⟩
  | .hbm, ⟨9, _⟩ => ⟨S16384x8, .f32⟩
  | .hbm, ⟨10, _⟩ => ⟨S16384x8, .f32⟩
  | .hbm, ⟨11, _⟩ => ⟨S1x8, .f32⟩
  | .hbm, ⟨12, _⟩ => ⟨S16384x8, .f32⟩
  | .hbm, ⟨13, _⟩ => ⟨S16384x8, .f32⟩
  | .hbm, ⟨14, _⟩ => ⟨S16384x1x8, .f32⟩
  | .hbm, ⟨15, _⟩ => ⟨S1x1024x8, .f32⟩
  | .hbm, ⟨16, _⟩ => ⟨S16384x1024x8, .f32⟩
  | .hbm, ⟨17, _⟩ => ⟨S16384x1024x8, .f32⟩
  | .hbm, ⟨18, _⟩ => ⟨S16384x1024x8, .f32⟩
  | .hbm, ⟨19, _⟩ => ⟨S16384x1024x8, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | _, _ => ⟨S16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  reducesTo_S16384x8_S8_d0 : S16384x8.ReducesTo [0] S8
  h_S_ : 0 < S_.numel
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S16384x8_S16384x1x8_0_2 : S16384x8.BroadcastsInDim S16384x1x8 (![0, 2] : Fin 2 → Fin S16384x1x8.rank)
  bcast_S1024x8_S1x1024x8_1_2 : S1024x8.BroadcastsInDim S1x1024x8 (![1, 2] : Fin 2 → Fin S1x1024x8.rank)
  bcast_S16384x1x8_S16384x1024x8_0_1_2 : S16384x1x8.BroadcastsInDim S16384x1024x8 (![0, 1, 2] : Fin 3 → Fin S16384x1024x8.rank)
  bcast_S1x1024x8_S16384x1024x8_0_1_2 : S1x1024x8.BroadcastsInDim S16384x1024x8 (![0, 1, 2] : Fin 3 → Fin S16384x1024x8.rank)
  reducesTo_S16384x1024x8_S16384x1024_d2 : S16384x1024x8.ReducesTo [2] S16384x1024
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  The function both programs compute, stated once over the extended reals.

  Every coordinate of a point is rescaled by its feature's range over the batch, (x − mn) / (mx − mn); a point's
  distance to a design point is the sum over the eight features of the absolute differences of the rescaled
  coordinates; the weight of a design point is exp of minus that distance; and an entry of the result is the sum over the
  1024 design points of the weight times an entry of the triangular factor. An entry (n, q) therefore reads row n of
  the points, every feature's minimum and maximum, every design point, and column q of the factor.
-/
import Idealize.ShloMosaic.PureOps.Ideal
import Idealize.ShloMosaic.Lib.ValueIdx

noncomputable section

namespace Cert.LaplaceFeatures

open Idealize.ShloMosaic Idealize.ShloMosaic.ValueIdx

/-- A coordinate rescaled by its feature's range, (x − mn) / (mx − mn), with the extended reals' total quotient. -/
def scaled (x mn mx : EReal) : EReal := Ideal.div (x - mn) (mx - mn)

/-- The absolute value on the extended reals: the larger of y and −y. -/
def absE (y : EReal) : EReal := max y (-y)

/-- The L1 distance of a rescaled point to a design point, over the eight features. -/
def l1dist (x mn mx z : Fin 8 → EReal) : EReal := ∑ d : Fin 8, absE (scaled (x d) (mn d) (mx d) - z d)

/-- One entry of the result: Σ_k exp(−l1dist(x, z_k)) · c_k over the 1024 design points. -/
def entry (x mn mx : Fin 8 → EReal) (z : Fin 1024 → Fin 8 → EReal) (c : Fin 1024 → EReal) : EReal :=
  ∑ k : Fin 1024, Ideal.exp (-(l1dist x mn mx (z k))) * c k

/-- The whole result: entry (n, q) from row n of the points `X`, the features' minima `mn` and maxima `mx`, the design
    points `Z` and column q of the factor `C`. -/
def result (X : (⟨2, ![16384, 8]⟩ : Shape).Idx → EReal) (mn mx : (⟨1, ![8]⟩ : Shape).Idx → EReal)
    (Z : (⟨2, ![1024, 8]⟩ : Shape).Idx → EReal) (C : (⟨2, ![1024, 1024]⟩ : Shape).Idx → EReal) :
    (⟨2, ![16384, 1024]⟩ : Shape).Idx → EReal := fun i =>
  entry (fun d => X (ix2 (i 0) d)) (fun d => mn (ix1 d)) (fun d => mx (ix1 d)) (fun k d => Z (ix2 k d))
    (fun k => C (ix2 k (i 1)))

/-- The result at explicit coordinates. -/
theorem result_apply (X : (⟨2, ![16384, 8]⟩ : Shape).Idx → EReal) (mn mx : (⟨1, ![8]⟩ : Shape).Idx → EReal)
    (Z : (⟨2, ![1024, 8]⟩ : Shape).Idx → EReal) (C : (⟨2, ![1024, 1024]⟩ : Shape).Idx → EReal) (n : Fin 16384) (q : Fin 1024) :
    result X mn mx Z C (ix2 n q)
      = entry (fun d => X (ix2 n d)) (fun d => mn (ix1 d)) (fun d => mx (ix1 d)) (fun k d => Z (ix2 k d)) (fun k => C (ix2 k q)) := rfl

/-- Eight terms added one after the other onto zero are their sum: addition on the extended reals is associative and
    zero is neutral, whatever the terms. -/
theorem seq_sum_eight (a : Fin 8 → EReal) :
    0 + a 0 + a 1 + a 2 + a 3 + a 4 + a 5 + a 6 + a 7 = ∑ d : Fin 8, a d := by
  rw [Fin.sum_univ_eight, zero_add]

end Cert.LaplaceFeatures

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.LibRowCol.lean ====
/-
  Rows and columns of a matrix read at an index.

  A column (an [a, 1] array) broadcast across b columns reads, at (p, c), the column at p; a load of row o of a matrix
  through the unit-stride rectangle at offsets (o, 0) of sizes (1, n) reads, at (0, k), the matrix at (o, k); and the
  one-column slice of a matrix at column o reads, at (p, 0), the matrix at (p, o).
-/
import Idealize.ShloMosaic.Lib.ValueIdx
import Idealize.ShloMosaic.Lib.ValueLayout
import Idealize.ShloMosaic.Lib.Pipeline.Value

noncomputable section

namespace Cert.LibRowCol

open Idealize.ShloMosaic Idealize.ShloMosaic.ValueIdx

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => show (0 : Nat) = if (1 : Nat) = 1 then 0 else _; rw [if_pos rfl]

/-- Row `o` of an [m, n] array loaded through the unit-stride rectangle at (o, 0) of sizes (1, n) reads, at (0, k), the
    array at (o, k). -/
theorem ld_row_apply {Val : EltTy → Type} {e : EltTy} {m n : ℕ} (X : (⟨2, ![m, n]⟩ : Shape).Idx → Val e) (o : ℕ) (ho : o < m)
    (inb : ∀ a, (![o, 0] : Fin 2 → ℕ) a + (![1, n] : Fin 2 → ℕ) a ≤ (⟨2, ![m, n]⟩ : Shape).size a) (k : Fin n) :
    View.ld X (Rect.unit (s := ⟨2, ![m, n]⟩) ![o, 0] ![1, n] inb) (ix2 (0 : Fin 1) k) = X (ix2 ⟨o, ho⟩ k) := by
  show X _ = X _
  refine congrArg X (funext fun a => Fin.ext ?_)
  match a with
  | ⟨0, _⟩ => show o + 1 * 0 = o; omega
  | ⟨1, _⟩ => show 0 + 1 * k.val = k.val; omega

/-- The one-column slice of an [m, n] array at column `o` reads, at (p, 0), the array at (p, o). -/
theorem column_slice_apply {α : Type} {m n : ℕ} (X : (⟨2, ![m, n]⟩ : Shape).Idx → α) (o : ℕ) (ho : o < n)
    (h : (⟨2, ![m, n]⟩ : Shape).Slices ![0, o] ⟨2, ![m, 1]⟩) (p : Fin m) :
    extractStridedSlice ⟨2, ![m, 1]⟩ ![0, o] X h (ix2 p (0 : Fin 1)) = X (ix2 p ⟨o, ho⟩) :=
  slice2_axis1_apply o X h p (0 : Fin 1) ⟨o, ho⟩ rfl

end Cert.LibRowCol

end
-- ==== Proof.KernelBody.lean ====
/-
  What the kernel's body leaves in its output block, entry by entry.

  The body rescales its 1024 rows of points by the features' minima and maxima, adds, feature after feature from zero, the
  absolute difference between a rescaled coordinate (a column broadcast across the design points) and the matching row of
  the transposed design points (broadcast down the rows), takes exp of zero minus that sum, and multiplies the resulting
  1024 × 1024 weights into the factor on the matrix unit from a zero accumulator. At the extended reals the change of
  format before the product is the identity, zero minus a number is its negation, the eight additions are the sum over the
  features, and the product is the sum over the contracted axis: entry (p, q) of the block is `entry` of row p of the
  points' block, the minima, the maxima, the design points and column q of the factor.
-/
import proofs.«154887_j2680059593368_1_alg».proof.Proof.Gen.KernelIdeal.Frame
import proofs.«154887_j2680059593368_1_alg».proof.Proof.Spec
import proofs.«154887_j2680059593368_1_alg».proof.Proof.LibPlainDot
import proofs.«154887_j2680059593368_1_alg».proof.Proof.LibRowCol
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen
open Idealize.ShloMosaic Idealize.ShloMosaic.ValueIdx Cert.LaplaceFeatures Cert.LibRowCol

/-- The rescaled block: entry (p, d) is the point's coordinate less the feature's minimum, over the feature's range. -/
theorem rescaled_at (v0 : Vec Ideal S1024x8 .f32) (v1 v3 : Vec Ideal S1x8 .f32) (p : Fin 1024) (d : Fin 8) :
    k0_pay2 (F := Ideal) v0 v1 v3 (ix2 p d) = scaled (v0 (ix2 p d)) (v1 (ix2 (0 : Fin 1) d)) (v3 (ix2 (0 : Fin 1) d)) := by
  unfold k0_pay2
  rw [divf_apply, subf_apply, broadcastTo_1b_ab_apply, broadcastTo_1b_ab_apply, subf_apply, shapeCast_self, shapeCast_self]
  rfl

/-- One feature's term: a column broadcast across, less a loaded row broadcast down, in absolute value. -/
theorem term_at (s : FVec Ideal S1024x1 .f32) (r : Vec Ideal S1x1024 .f32) (hc : S1x1024.ShapeCasts S1x1024)
    (hb1 : S1024x1.Broadcasts S1024x1024) (hb2 : S1x1024.Broadcasts S1024x1024) (p k : Fin 1024) :
    absf (subf (broadcastTo S1024x1024 s hb1) (broadcastTo S1024x1024 (shapeCast S1x1024 r hc) hb2)) (ix2 p k)
      = absE (s (ix2 p (0 : Fin 1)) - r (ix2 (0 : Fin 1) k)) := by
  show FloatOps.absf (F := Ideal) (FloatOps.subf (broadcastTo S1024x1024 s hb1 (ix2 p k))
    (broadcastTo S1024x1024 (shapeCast S1x1024 r hc) hb2 (ix2 p k))) = _
  rw [broadcastTo_a1_ab_apply, broadcastTo_1b_ab_apply, shapeCast_self]
  rfl

/-- The same with the column cut out of the rescaled block at feature `o`. -/
theorem term_slice_at (v9 : FVec Ideal S1024x8 .f32) (o : ℕ) (ho : o < 8) (hs : S1024x8.Slices ![0, o] S1024x1)
    (r : Vec Ideal S1x1024 .f32) (hc : S1x1024.ShapeCasts S1x1024)
    (hb1 : S1024x1.Broadcasts S1024x1024) (hb2 : S1x1024.Broadcasts S1024x1024) (p k : Fin 1024) :
    absf (subf (broadcastTo S1024x1024 (extractStridedSlice S1024x1 ![0, o] v9 hs) hb1)
        (broadcastTo S1024x1024 (shapeCast S1x1024 r hc) hb2)) (ix2 p k)
      = absE (v9 (ix2 p ⟨o, ho⟩) - r (ix2 (0 : Fin 1) k)) := by
  rw [term_at, column_slice_apply v9 o ho hs p]

/-- The first four features' terms, added one after the other onto the zero splat. -/
theorem first_four_at (v0 : Vec Ideal S1024x8 .f32) (v1 v3 : Vec Ideal S1x8 .f32) (v12 v20 v28 v36 : Vec Ideal S1x1024 .f32)
    (p k : Fin 1024) :
    k0_pay3 (F := Ideal) v0 v1 v3 v12 v20 v28 v36 (ix2 p k)
      = 0 + absE (k0_pay2 (F := Ideal) v0 v1 v3 (ix2 p (0 : Fin 8)) - v12 (ix2 (0 : Fin 1) k))
          + absE (k0_pay2 (F := Ideal) v0 v1 v3 (ix2 p (1 : Fin 8)) - v20 (ix2 (0 : Fin 1) k))
          + absE (k0_pay2 (F := Ideal) v0 v1 v3 (ix2 p (2 : Fin 8)) - v28 (ix2 (0 : Fin 1) k))
          + absE (k0_pay2 (F := Ideal) v0 v1 v3 (ix2 p (3 : Fin 8)) - v36 (ix2 (0 : Fin 1) k)) := by
  unfold k0_pay3
  rw [addf_apply, addf_apply, addf_apply, addf_apply, broadcast_apply,
    term_slice_at _ 0 (by decide), term_slice_at _ 1 (by decide), term_slice_at _ 2 (by decide), term_slice_at _ 3 (by decide)]
  show Ideal.ofBits .f32 0x00000000#32 + _ + _ + _ + _ = _
  rw [Ideal.ofBits_zero_f32]
  rfl

/-- The fifth feature's column of the rescaled block. -/
theorem fifth_column_at (v0 : Vec Ideal S1024x8 .f32) (v1 v3 : Vec Ideal S1x8 .f32) (p : Fin 1024) :
    k0_pay4 (F := Ideal) v0 v1 v3 (ix2 p (0 : Fin 1)) = k0_pay2 (F := Ideal) v0 v1 v3 (ix2 p (4 : Fin 8)) := by
  unfold k0_pay4
  exact column_slice_apply _ 4 (by decide) _ p

/-- The stored value: the last four features' terms added on, exp of zero minus the sum, and the product with the factor
    as the sum over the design points. -/
theorem weights_product_at (v9 : FVec Ideal S1024x8 .f32) (v42 : FVec Ideal S1024x1024 .f32) (v43 : FVec Ideal S1024x1 .f32)
    (v44 v52 v60 v68 : Vec Ideal S1x1024 .f32) (v79 : Vec Ideal S1024x1024 .bf16) (p q : Fin 1024) :
    k0_pay1 (F := Ideal) v9 v42 v43 v44 v52 v60 v68 v79 (ix2 p q)
      = ∑ k : Fin 1024, Ideal.exp (-(v42 (ix2 p k) + absE (v43 (ix2 p (0 : Fin 1)) - v44 (ix2 (0 : Fin 1) k))
            + absE (v9 (ix2 p (5 : Fin 8)) - v52 (ix2 (0 : Fin 1) k))
            + absE (v9 (ix2 p (6 : Fin 8)) - v60 (ix2 (0 : Fin 1) k))
            + absE (v9 (ix2 p (7 : Fin 8)) - v68 (ix2 (0 : Fin 1) k)))) * v79 (ix2 k q) := by
  unfold k0_pay1
  refine (LibPlainDot.matmul_plain_zero (M := 1024) (K := 1024) (N := 1024) none _ _ (ix2 p q)).trans ?_
  refine Finset.sum_congr rfl fun k _ => ?_
  show Ideal.exp (Ideal.ofBits .f32 0x00000000#32 - addf (addf (addf (addf v42 _) _) _) _ (ix2 p k))
    * shapeCast S1024x1024 v79 _ (ix2 k q) = _
  rw [shapeCast_self v79, addf_apply, addf_apply, addf_apply, addf_apply, term_at, term_slice_at _ 5 (by decide), term_slice_at _ 6 (by decide),
    term_slice_at _ 7 (by decide), Ideal.ofBits_zero_f32, zero_sub]
  rfl

/-- The zero offsets of a whole-buffer access, however they are spelt. -/
theorem zero_offsets : (![0, 0] : Fin 2 → Nat) = fun _ => 0 := funext fun a => by fin_cases a <;> rfl

/-- ENTRY (p, q) OF THE OUTPUT BLOCK is `entry` of row p of the points' block `x0`, the minima `x2` and maxima `x3` (one row
    each), the transposed design points `x1` and column q of the factor `x4`. -/
theorem block_entry (x0 : Vec Ideal S1024x8 .f32) (x1 : Vec Ideal S8x1024 .f32) (x2 x3 : Vec Ideal S1x8 .f32)
    (x4 : Vec Ideal S1024x1024 .bf16) (p q : Fin 1024) :
    out0_5 (F := Ideal) x0 x1 x2 x3 x4 (ix2 p q)
      = entry (fun d => x0 (ix2 p d)) (fun d => x2 (ix2 (0 : Fin 1) d)) (fun d => x3 (ix2 (0 : Fin 1) d))
          (fun k d => x1 (ix2 d k)) (fun k => x4 (ix2 k q)) := by
  unfold out0_5
  rw [View.canon_unit_zero zero_offsets]
  simp only [View.ld_unit_zero (S := S1024x8) zero_offsets, View.ld_unit_zero (S := S1x8) zero_offsets,
    View.ld_unit_zero (S := S1024x1024) zero_offsets]
  rw [weights_product_at]
  unfold entry
  refine Finset.sum_congr rfl fun k _ => ?_
  rw [first_four_at, fifth_column_at, rescaled_at, rescaled_at, rescaled_at, rescaled_at, rescaled_at, rescaled_at, rescaled_at,
    rescaled_at, ld_row_apply x1 0 (by decide) _ k, ld_row_apply x1 1 (by decide) _ k, ld_row_apply x1 2 (by decide) _ k,
    ld_row_apply x1 3 (by decide) _ k, ld_row_apply x1 4 (by decide) _ k, ld_row_apply x1 5 (by decide) _ k,
    ld_row_apply x1 6 (by decide) _ k, ld_row_apply x1 7 (by decide) _ k]
  exact congrArg (fun s => Ideal.exp (-s) * x4 (ix2 k q))
    (seq_sum_eight fun d => absE (scaled (x0 (ix2 p d)) (x2 (ix2 (0 : Fin 1) d)) (x3 (ix2 (0 : Fin 1) d)) - x1 (ix2 d k)))

/-- The same at any index of the block, with what the entry reads given by name: row `y 0` of the points' block, the
    minima, the maxima, the design points and column `y 1` of the factor. -/
theorem block_entry_of (x0 : Vec Ideal S1024x8 .f32) (x1 : Vec Ideal S8x1024 .f32) (x2 x3 : Vec Ideal S1x8 .f32)
    (x4 : Vec Ideal S1024x1024 .bf16) (y : S1024x1024.Idx) (row mn mx : Fin 8 → EReal) (z : Fin 1024 → Fin 8 → EReal)
    (col : Fin 1024 → EReal)
    (h0 : ∀ d : Fin 8, x0 (ix2 (y 0) d) = row d) (h2 : ∀ d : Fin 8, x2 (ix2 (0 : Fin 1) d) = mn d)
    (h3 : ∀ d : Fin 8, x3 (ix2 (0 : Fin 1) d) = mx d) (h1 : ∀ (k : Fin 1024) (d : Fin 8), x1 (ix2 d k) = z k d)
    (h4 : ∀ k : Fin 1024, x4 (ix2 k (y 1)) = col k) :
    out0_5 (F := Ideal) x0 x1 x2 x3 x4 y = entry row mn mx z col := by
  obtain ⟨p, q, rfl⟩ : ∃ (p q : Fin 1024), y = ix2 p q := ⟨y 0, y 1, eq_ix2 y⟩
  rw [block_entry]
  exact congr (congr (congr (congr (congrArg entry (funext h0)) (funext h2)) (funext h3)) (funext fun k => funext (h1 k)))
    (funext h4)

end Cert.KernelIdeal.Body

end
-- ==== Proof.HostPrefix.lean ====
/-
  What the kernel's region finds in the arrays its windows stage.

  Before the region @main computes, on the host, each feature's minimum and maximum over the points (each laid out as one
  row), the transposed design points, and the factor in the narrower format. At the extended reals the change of format is
  the identity and the transpose only swaps the two coordinates; the minima and maxima are kept as the host's two
  reductions of the points, which the reference computes in the same way.
-/
import proofs.«154887_j2680059593368_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Prefix

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Each feature's minimum over the points: the host's reduction by `min` from +∞. -/
def featureMin (X : FVec Ideal S16384x8 .f32) : FVec Ideal S8 .f32 :=
  Host.reduce FloatOps.minimumf X (constant S_ .f32 0x7F800000#32) reducesTo_S16384x8_S8_d0 h_S_

/-- Each feature's maximum over the points: the host's reduction by `max` from −∞. -/
def featureMax (X : FVec Ideal S16384x8 .f32) : FVec Ideal S8 .f32 :=
  Host.reduce FloatOps.maximumf X (constant S_ .f32 0xFF800000#32) reducesTo_S16384x8_S8_d0 h_S_

/-- The row of minima the region finds. -/
theorem minRow_eq (c : Dev nD) :
    (V m c main_v1 : S1x8.Idx → EReal) = broadcastInDim S1x8 ![1] bcast_S8_S1x8_1 (featureMin (m ((c : Thread nD τ).loc main_arg0))) := by
  dsimp only [V, hostOps0]; after_results <;> rfl

/-- The row of maxima the region finds. -/
theorem maxRow_eq (c : Dev nD) :
    (V m c main_v3 : S1x8.Idx → EReal) = broadcastInDim S1x8 ![1] bcast_S8_S1x8_1 (featureMax (m ((c : Thread nD τ).loc main_arg0))) := by
  dsimp only [V, hostOps0]; after_results <;> rfl

/-- The transposed design points the region finds. -/
theorem designT_eq (c : Dev nD) :
    (V m c main_v4 : S8x1024.Idx → EReal) = transpose S8x1024 [1, 0] (m ((c : Thread nD τ).loc main_arg1)) transposes_S1024x8_S8x1024_1_0 := by
  dsimp only [V, hostOps0]; after_results <;> rfl

/-- The factor the region finds: the argument, its format changed. -/
theorem factor_eq (c : Dev nD) :
    (V m c main_v5 : S1024x1024.Idx → EReal)
      = truncf (F := Ideal) .bf16 (show FVec Ideal S1024x1024 .f32 from m ((c : Thread nD τ).loc main_arg2)) bitsLt_bf16_f32 := by
  dsimp only [V, hostOps0]; after_results <;> rfl

/-- One row laid out from a vector reads, at (0, d), the vector at d. -/
theorem row_of_vector_at (v : FVec Ideal S8 .f32) (d : Fin 8) :
    broadcastInDim S1x8 ![1] bcast_S8_S1x8_1 v (ix2 (0 : Fin 1) d) = v (ix1 d) :=
  broadcastInDim_apply _ bcast_S8_S1x8_1 v (ix2 (0 : Fin 1) d) (ix1 d) (fun a => match a with
    | ⟨0, _⟩ => by show d.val = if (8 : Nat) = 1 then 0 else d.val; rw [if_neg (by decide)])

/-- The minima at a feature. -/
theorem minRow_at (c : Dev nD) (d : Fin 8) :
    (V m c main_v1 : S1x8.Idx → EReal) (ix2 (0 : Fin 1) d) = featureMin (m ((c : Thread nD τ).loc main_arg0)) (ix1 d) := by
  rw [minRow_eq, row_of_vector_at]

/-- The maxima at a feature. -/
theorem maxRow_at (c : Dev nD) (d : Fin 8) :
    (V m c main_v3 : S1x8.Idx → EReal) (ix2 (0 : Fin 1) d) = featureMax (m ((c : Thread nD τ).loc main_arg0)) (ix1 d) := by
  rw [maxRow_eq, row_of_vector_at]

/-- The transposed design points at (d, k) are the design points at (k, d). -/
theorem designT_at (c : Dev nD) (d : Fin 8) (k : Fin 1024) :
    (V m c main_v4 : S8x1024.Idx → EReal) (ix2 d k) = (m ((c : Thread nD τ).loc main_arg1) : S1024x8.Idx → EReal) (ix2 k d) := by
  rw [designT_eq]
  exact transpose_ix2_apply _ _ d k

/-- The factor at an index is the argument there. -/
theorem factor_at (c : Dev nD) (k q : Fin 1024) :
    (V m c main_v5 : S1024x1024.Idx → EReal) (ix2 k q) = (m ((c : Thread nD τ).loc main_arg2) : S1024x1024.Idx → EReal) (ix2 k q) := by
  rw [factor_eq]
  rfl

end Cert.KernelIdeal.Prefix

end
-- ==== Proof.KernelBlocks.lean ====
/-
  The blocks the kernel's windows stage, read at an index.

  At grid point t the points' window holds rows 1024·t … 1024·t + 1023 of the points; each of the other four input
  windows holds the whole of its array at every point: the transposed design points, the row of minima, the row of
  maxima and the factor. Read through what the region finds in those arrays, an entry of a block is an entry of an
  argument array (or of the host's reductions of the points).
-/
import proofs.«154887_j2680059593368_1_alg».proof.Proof.Gen.KernelIdeal.Frame
import proofs.«154887_j2680059593368_1_alg».proof.Proof.HostPrefix

set_option maxRecDepth 16384

noncomputable section

namespace Cert.KernelIdeal.Blocks

open Cert.KernelIdeal Cert.KernelIdeal.Gen Cert.KernelIdeal.Prefix
open Idealize.ShloMosaic Idealize.ShloMosaic.TcCoe Idealize.SL.Sem Idealize.ShloMosaic.ValueIdx

variable (m : (ℓ : Loc nD τ sig) → Buf (Elt Ideal) ℓ)

/-- The printed index maps over the grid: the points' window and the result's window are at block row t, column 0; every
    other window stays at its one block. -/
theorem index_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The points' block at point `t` is rows 1024·t … 1024·t + 1023 of the points. -/
theorem points_block_at (c : Dev nD) (t : Fin cfg0.N) (x : S1024x8.Idx) (k : S16384x8.Idx)
    (hk0 : (k 0).val = t.val * 1024 + (x 0).val) (hk1 : (k 1).val = (x 1).val) :
    (iblk m c 0 t : Vec Ideal S1024x8 .f32) x = (m ((c : Thread nD τ).loc main_arg0) : S16384x8.Idx → EReal) k := by
  obtain ⟨-, -, e00, e01, -⟩ := index_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 1024 + 1 * (x 0).val = (k 0).val; rw [e00, hk0]; omega
  | ⟨1, _⟩ => show win0_0.index t (1 : Fin 2) * 8 + 1 * (x 1).val = (k 1).val; rw [e01, hk1]; omega

/-- The minima's block, at every point, is the row of minima: at (0, d) the minimum of feature d. -/
theorem min_block_at (c : Dev nD) (t : Fin cfg0.N) (d : Fin 8) :
    (iblk m c 2 t : Vec Ideal S1x8 .f32) (ix2 (0 : Fin 1) d) = featureMin (m ((c : Thread nD τ).loc main_arg0)) (ix1 d) := by
  obtain ⟨-, -, -, -, -, -, e20, e21, -⟩ := index_facts t
  unfold iblk
  rw [View.read_apply]
  show (V m c main_v1 : S1x8.Idx → EReal) _ = _
  refine Eq.trans (congrArg (V m c main_v1 : S1x8.Idx → EReal) (funext fun a => Fin.ext ?_)) (minRow_at m c d)
  match a with
  | ⟨0, _⟩ => show win0_2.index t (0 : Fin 2) * 1 + 1 * 0 = 0; rw [e20]
  | ⟨1, _⟩ => show win0_2.index t (1 : Fin 2) * 8 + 1 * d.val = d.val; rw [e21]; omega

/-- The maxima's block, at every point, is the row of maxima. -/
theorem max_block_at (c : Dev nD) (t : Fin cfg0.N) (d : Fin 8) :
    (iblk m c 3 t : Vec Ideal S1x8 .f32) (ix2 (0 : Fin 1) d) = featureMax (m ((c : Thread nD τ).loc main_arg0)) (ix1 d) := by
  obtain ⟨-, -, -, -, -, -, -, -, e30, e31, -⟩ := index_facts t
  unfold iblk
  rw [View.read_apply]
  show (V m c main_v3 : S1x8.Idx → EReal) _ = _
  refine Eq.trans (congrArg (V m c main_v3 : S1x8.Idx → EReal) (funext fun a => Fin.ext ?_)) (maxRow_at m c d)
  match a with
  | ⟨0, _⟩ => show win0_3.index t (0 : Fin 2) * 1 + 1 * 0 = 0; rw [e30]
  | ⟨1, _⟩ => show win0_3.index t (1 : Fin 2) * 8 + 1 * d.val = d.val; rw [e31]; omega

/-- The transposed design points' block, at every point, is the whole of them: at (d, k) design point k's feature d. -/
theorem design_block_at (c : Dev nD) (t : Fin cfg0.N) (d : Fin 8) (k : Fin 1024) :
    (iblk m c 1 t : Vec Ideal S8x1024 .f32) (ix2 d k)
      = (m ((c : Thread nD τ).loc main_arg1) : S1024x8.Idx → EReal) (ix2 k d) := by
  obtain ⟨-, -, -, -, e10, e11, -⟩ := index_facts t
  unfold iblk
  rw [View.read_apply]
  show (V m c main_v4 : S8x1024.Idx → EReal) _ = _
  refine Eq.trans (congrArg (V m c main_v4 : S8x1024.Idx → EReal) (funext fun a => Fin.ext ?_)) (designT_at m c d k)
  match a with
  | ⟨0, _⟩ => show win0_1.index t (0 : Fin 2) * 8 + 1 * d.val = d.val; rw [e10]; omega
  | ⟨1, _⟩ => show win0_1.index t (1 : Fin 2) * 1024 + 1 * k.val = k.val; rw [e11]; omega

/-- The factor's block, at every point, is the whole factor. -/
theorem factor_block_at (c : Dev nD) (t : Fin cfg0.N) (k q : Fin 1024) :
    (iblk m c 4 t : Vec Ideal S1024x1024 .bf16) (ix2 k q)
      = (m ((c : Thread nD τ).loc main_arg2) : S1024x1024.Idx → EReal) (ix2 k q) := by
  obtain ⟨-, -, -, -, -, -, -, -, -, -, e40, e41⟩ := index_facts t
  unfold iblk
  rw [View.read_apply]
  show (V m c main_v5 : S1024x1024.Idx → EReal) _ = _
  refine Eq.trans (congrArg (V m c main_v5 : S1024x1024.Idx → EReal) (funext fun a => Fin.ext ?_)) (factor_at m c k q)
  match a with
  | ⟨0, _⟩ => show win0_4.index t (0 : Fin 2) * 1024 + 1 * k.val = k.val; rw [e40]; omega
  | ⟨1, _⟩ => show win0_4.index t (1 : Fin 2) * 1024 + 1 * q.val = q.val; rw [e41]; omega

end Cert.KernelIdeal.Blocks

end
-- ==== Proof.KernelValue.lean ====
/-
  The kernel's result array is `result` of the argument arrays.

  The grid has sixteen points; point t writes back rows 1024·t … 1024·t + 1023 of the result. An entry of the block written
  at point t is `entry` of what the body read there, and what it read is what `result` reads at the entry's place in the
  array: the same row of the points, the same minima and maxima, the design points (transposed back) and the same column
  of the factor. The sixteen blocks tile the array, so the array ends holding `result`.
-/
import proofs.«154887_j2680059593368_1_alg».proof.Proof.Gen.KernelIdeal.Value
import proofs.«154887_j2680059593368_1_alg».proof.Proof.KernelBody
import proofs.«154887_j2680059593368_1_alg».proof.Proof.KernelBlocks
import proofs.«154887_j2680059593368_1_alg».proof.Proof.Spec

set_option maxRecDepth 16384

noncomputable section

namespace Cert.KernelIdeal.WholeArray

open Cert.KernelIdeal Cert.KernelIdeal.Gen Cert.KernelIdeal.Body Cert.KernelIdeal.Prefix Cert.KernelIdeal.Blocks
open Idealize.ShloMosaic Idealize.ShloMosaic.TcCoe Idealize.SL.Sem Idealize.ShloMosaic.ValueIdx Cert.LaplaceFeatures
open Idealize.ShloMosaic.Pipeline (Dat)

variable (m : (ℓ : Loc nD τ sig) → Buf (Elt Ideal) ℓ) (ρ : Dev nD → PrngReg)

/-- What the result array ends holding on core `c`: `result` of the three argument arrays, the minima and maxima the
    host's reductions of the points. -/
def kernelResult (c : Dev nD) : S16384x1024.Idx → EReal :=
  result (m ((c : Thread nD τ).loc main_arg0)) (featureMin (m ((c : Thread nD τ).loc main_arg0)))
    (featureMax (m ((c : Thread nD τ).loc main_arg0))) (m ((c : Thread nD τ).loc main_arg1)) (m ((c : Thread nD τ).loc main_arg2))

/-- WHAT POINT `t` WRITES BACK is block `t` of `kernelResult`. -/
theorem flushed_eq (c : Dev nD) (t : Fin cfg0.N) :
    (dats m 0 c).flushed 5 t = ((cfg0.win 5).blk t).view.read (Elt Ideal) (kernelResult m c) := by
  rw [Value.flushed5]
  obtain ⟨e50, e51, -⟩ := index_facts t
  have hN : cfg0.N = 16 := N_0
  funext y
  rw [View.read_apply]
  have hy0 : (y 0).val < 1024 := (y 0).isLt
  have hy1 : (y 1).val < 1024 := (y 1).isLt
  have hrow : t.val * 1024 + (y 0).val < 16384 := by have := t.isLt; omega
  have hemb : ((cfg0.win 5).blk t).view.emb y
      = ix2 (⟨t.val * 1024 + (y 0).val, hrow⟩ : Fin 16384) (⟨(y 1).val, hy1⟩ : Fin 1024) :=
    funext fun a => Fin.ext (by
      match a with
      | ⟨0, _⟩ => show win0_5.index t (0 : Fin 2) * 1024 + 1 * (y 0).val = t.val * 1024 + (y 0).val; rw [e50]; omega
      | ⟨1, _⟩ => show win0_5.index t (1 : Fin 2) * 1024 + 1 * (y 1).val = (y 1).val; rw [e51]; omega)
  rw [hemb]
  unfold kernelResult
  rw [result_apply]
  refine Eq.trans ?_ (cast_eq _ _).symm
  exact block_entry_of (iblk m c 0 t) (iblk m c 1 t) (iblk m c 2 t) (iblk m c 3 t) (iblk m c 4 t)
    ((cfg0.win 5).xinj (grid0.coords t) y) _ _ _ _ _
    (fun d => points_block_at m c t (ix2 (⟨(y 0).val, hy0⟩ : Fin 1024) d)
      (ix2 (⟨t.val * 1024 + (y 0).val, hrow⟩ : Fin 16384) d) rfl rfl)
    (fun d => min_block_at m c t d) (fun d => max_block_at m c t d) (fun k d => design_block_at m c t d k)
    (fun k => factor_block_at m c t k ⟨(y 1).val, hy1⟩)

/-- An index of the array is in point `t`'s block iff each coordinate is in the block's range on its axis. -/
theorem mem_block (t : Fin cfg0.N) (i : S16384x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v6).slice (win0_5.rect t)).set ↔ _
  rw [View.set_slice_whole, Rect.mem_set_unit]
  exact Iff.rfl

/-- Every index of the array is in the block of the point its row falls in. -/
theorem covered (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : (i 0).val / 1024 < cfg0.N := by show (i 0).val / 1024 < grid0.N; rw [N_0]; omega
  obtain ⟨e50, e51, -⟩ := index_facts ⟨(i 0).val / 1024, hN⟩
  refine ⟨⟨(i 0).val / 1024, hN⟩, flush0_5 _, ?_⟩
  rw [mem_block]
  intro a
  match a with
  | ⟨0, _⟩ =>
    show win0_5.index ⟨(i 0).val / 1024, hN⟩ (0 : Fin 2) * 1024 ≤ (i 0).val
      ∧ (i 0).val < win0_5.index ⟨(i 0).val / 1024, hN⟩ (0 : Fin 2) * 1024 + 1024
    rw [e50]
    show (i 0).val / 1024 * 1024 ≤ (i 0).val ∧ (i 0).val < (i 0).val / 1024 * 1024 + 1024
    omega
  | ⟨1, _⟩ =>
    show win0_5.index ⟨(i 0).val / 1024, hN⟩ (1 : Fin 2) * 1024 ≤ (i 1).val
      ∧ (i 1).val < win0_5.index ⟨(i 0).val / 1024, hN⟩ (1 : Fin 2) * 1024 + 1024
    rw [e51]
    omega

/-- THE ARRAY after the run is `kernelResult`. -/
theorem final (c : Dev nD) : (dats m 0 c).arrAt 5 cfg0.N = kernelResult m c :=
  (dats m 0 c).arrAt_eq_of_cover 5 (kernelResult m c) (fun t _ => flushed_eq m c t) covered

/-- The kernel's run: the result array at `kernelResult`, the arguments unchanged. -/
theorem run : θ_run defs (onTc (τ := τ) (main (F := Ideal))) ⟨m, fun _ => 0, ρ⟩ fun r => ∀ c : Dev nD,
      r.2.mem ((c : Thread nD τ).loc main_v6) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.WholeArray

end
-- ==== Proof.RefValue.lean ====
/-
  The reference program computes `result`.

  Its stages are read one after the other at explicit coordinates: the rescaled coordinate of point n at feature d, the
  absolute difference to design point k at feature d, the distance as the host's sum over the last axis (the initial
  value zero is neutral), the weight as the host's exponential of the host's negation, and the final product as the sum
  over the contracted axis. The broadcasts only re-index: each composed index function is identified with the plain
  coordinates it stands for.
-/
import proofs.«154887_j2680059593368_1_alg».proof.Proof.Gen.ReferenceIdeal.Read
import proofs.«154887_j2680059593368_1_alg».proof.Proof.Spec
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.LaplaceFeatures

variable (x0 : (⟨S16384x8, .f32⟩ : BufTy).Contents (Elt Ideal)) (x1 : (⟨S1024x8, .f32⟩ : BufTy).Contents (Elt Ideal))

/-- The feature's minimum broadcast over the points is read at the feature. -/
theorem min_at (n : Fin 16384) (d : Fin 8) : val_main_v4 (F := Ideal) x0 (ix2 n d) = val_main_v0 (F := Ideal) x0 (ix1 d) := by
  rw [val_main_v4_apply, val_main_v1_apply]
  exact congrArg _ (funext fun a => Fin.ext (by match a with | ⟨0, _⟩ => rfl))

/-- The feature's range, maximum minus minimum, broadcast over the points is read at the feature. -/
theorem range_at (n : Fin 16384) (d : Fin 8) :
    val_main_v7 (F := Ideal) x0 (ix2 n d) = val_main_v2 (F := Ideal) x0 (ix1 d) - val_main_v0 (F := Ideal) x0 (ix1 d) := by
  rw [val_main_v7_apply, val_main_v6_apply, val_main_v3_apply, val_main_v1_apply]
  have e3 : idx_main_v3 (idx_main_v7 (ix2 n d)) = ix1 d := funext fun a => Fin.ext (by match a with | ⟨0, _⟩ => rfl)
  have e1 : idx_main_v1 (idx_main_v7 (ix2 n d)) = ix1 d := funext fun a => Fin.ext (by match a with | ⟨0, _⟩ => rfl)
  rw [e3, e1]
  rfl

/-- The host's quotient is the rescaled coordinate. -/
theorem scaled_at (n : Fin 16384) (d : Fin 8) :
    val_main_v8 (F := Ideal) x0 (ix2 n d)
      = scaled (x0 (ix2 n d)) (val_main_v0 (F := Ideal) x0 (ix1 d)) (val_main_v2 (F := Ideal) x0 (ix1 d)) := by
  rw [val_main_v8_apply, val_main_v5_apply, min_at, range_at]
  rfl

/-- The absolute difference at point n, design point k, feature d. -/
theorem term_at (n : Fin 16384) (k : Fin 1024) (d : Fin 8) :
    val_main_v14 (F := Ideal) x0 x1 (ix3 n k d)
      = absE (scaled (x0 (ix2 n d)) (val_main_v0 (F := Ideal) x0 (ix1 d)) (val_main_v2 (F := Ideal) x0 (ix1 d)) - x1 (ix2 k d)) := by
  rw [val_main_v14_apply, val_main_v13_apply, val_main_v11_apply, val_main_v9_apply, val_main_v12_apply, val_main_v10_apply]
  have e9 : idx_main_v9 (idx_main_v11 (ix3 n k d)) = ix2 n d :=
    funext fun a => Fin.ext (by match a with | ⟨0, _⟩ => rfl | ⟨1, _⟩ => rfl)
  have e10 : idx_main_v10 (idx_main_v12 (ix3 n k d)) = ix2 k d :=
    funext fun a => Fin.ext (by match a with | ⟨0, _⟩ => rfl | ⟨1, _⟩ => rfl)
  rw [e9, e10, scaled_at]
  rfl

/-- The host's sum over the features, from zero, is the distance. -/
theorem dist_at (n : Fin 16384) (k : Fin 1024) :
    val_main_v15 (F := Ideal) x0 x1 (ix2 n k)
      = l1dist (fun d => x0 (ix2 n d)) (fun d => val_main_v0 (F := Ideal) x0 (ix1 d)) (fun d => val_main_v2 (F := Ideal) x0 (ix1 d))
          (fun d => x1 (ix2 k d)) := by
  rw [val_main_v15_apply, val_main_cst_1_apply]
  show Ideal.ofBits .f32 0x00000000#32 + _ = _
  rw [Ideal.ofBits_zero_f32, zero_add]
  unfold l1dist
  refine Finset.sum_congr rfl fun d _ => ?_
  have e15 : idx_main_v15 (ix2 n k) d = ix3 n k d :=
    funext fun a => Fin.ext (by match a with | ⟨0, _⟩ => rfl | ⟨1, _⟩ => rfl | ⟨2, _⟩ => rfl)
  rw [e15, term_at]

/-- THE REFERENCE'S RESULT is `result` of its arguments, the features' minima and maxima being its own two reductions of
    the points. -/
theorem ref_is_result (x2 : (⟨S1024x1024, .f32⟩ : BufTy).Contents (Elt Ideal)) :
    val_main_v18 (F := Ideal) x0 x1 x2 = result x0 (val_main_v0 (F := Ideal) x0) (val_main_v2 (F := Ideal) x0) x1 x2 := by
  funext i
  obtain ⟨n, q, rfl⟩ : ∃ (n : Fin 16384) (q : Fin 1024), i = ix2 n q := ⟨i 0, i 1, eq_ix2 i⟩
  rw [val_main_v18_apply, result_apply]
  unfold entry
  refine Finset.sum_congr rfl fun k _ => ?_
  have el : lidx_main_v18 (ix2 n q) k = ix2 n k := funext fun a => Fin.ext (by match a with | ⟨0, _⟩ => rfl | ⟨1, _⟩ => rfl)
  have er : ridx_main_v18 (ix2 n q) k = ix2 k q := funext fun a => Fin.ext (by match a with | ⟨0, _⟩ => rfl | ⟨1, _⟩ => rfl)
  rw [el, er, val_main_v17_apply, val_main_v16_apply, dist_at]
  simp only [Ideal.hostUnary_exp_def, Ideal.hostNegf_def, Ideal.negf_def]

end Cert.ReferenceIdeal.RefValue

end
-- ==== Proof.lean ====
/-
  A Laplace product kernel against design points, contracted with a triangular factor: the Pallas kernel and its jnp
  reference compute the same array over the extended reals.

  Both programs rescale every coordinate of the 16384 points by its feature's range over the batch, (x − mn) / (mx − mn),
  with mn and mx the host's reductions of the points by min and by max (the same two operations, with the same initial
  values, in both programs); take, for every point n and design point k, the L1 distance over the eight features; turn
  it into the weight exp(−distance); and multiply the 16384 × 1024 weights into the 1024 × 1024 factor.

  They differ in arrangement only. The kernel works on 1024 rows of points at a time, reads the design points transposed,
  adds the eight features' terms one after the other onto zero where the reference reduces over the last axis, writes
  the negation as zero minus the sum, narrows the weights and the factor to a 16-bit format before the matrix unit's
  product into a zero accumulator, where the reference calls one `dot_general` in the wide format. At the extended reals a
  change of format is the identity, zero minus a number is its negation, addition is associative with zero neutral
  whatever the terms, and both products are the sum over the contracted axis: no law used here needs the inputs to be
  finite, so the precondition is never opened.

  `Spec` states the common function (`result`); `RefValue` reads the reference's stages as it; `KernelBody` reads an entry of
  the kernel's output block as it, `HostPrefix` what the region finds in the arrays its windows stage, and `KernelValue`
  goes from the sixteen blocks to the whole array. The kernel's two frames are the generated ones; the reference's frame
  is its generated run with the result dropped; the idealization rewrote nothing, so `preserves` is `True`.
-/
import proofs.«154887_j2680059593368_1_alg».proof.Defs
import proofs.«154887_j2680059593368_1_alg».proof.Proof.Gen.Kernel
import proofs.«154887_j2680059593368_1_alg».proof.Proof.Gen.Kernel.Skeleton
import proofs.«154887_j2680059593368_1_alg».proof.Proof.Gen.Kernel.Launch
import proofs.«154887_j2680059593368_1_alg».proof.Proof.Gen.Kernel.Points
import proofs.«154887_j2680059593368_1_alg».proof.Proof.Gen.Kernel.Frame
import proofs.«154887_j2680059593368_1_alg».proof.Proof.Gen.KernelIdeal
import proofs.«154887_j2680059593368_1_alg».proof.Proof.Gen.KernelIdeal.Skeleton
import proofs.«154887_j2680059593368_1_alg».proof.Proof.Gen.KernelIdeal.Launch
import proofs.«154887_j2680059593368_1_alg».proof.Proof.Gen.KernelIdeal.Points
import proofs.«154887_j2680059593368_1_alg».proof.Proof.Gen.KernelIdeal.Frame
import proofs.«154887_j2680059593368_1_alg».proof.Proof.Gen.KernelIdeal.Value
import proofs.«154887_j2680059593368_1_alg».proof.Proof.Gen.ReferenceIdeal
import proofs.«154887_j2680059593368_1_alg».proof.Proof.Gen.ReferenceIdeal.Run
import proofs.«154887_j2680059593368_1_alg».proof.Proof.Gen.ReferenceIdeal.Read
import proofs.«154887_j2680059593368_1_alg».proof.Proof.Gen.Pre_finite_inputs
import proofs.«154887_j2680059593368_1_alg».proof.Proof.KernelValue
import proofs.«154887_j2680059593368_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with `result` of them in their result arrays: the
    kernel by its sixteen blocks, the reference by its stages; the minima and maxima are one pair of host reductions. -/
theorem algebraic : Cert.algebraic_KernelIdeal_ReferenceIdeal := by
  intro m ρ m' ρ' _ hagree
  refine ⟨fun c => Cert.KernelIdeal.WholeArray.kernelResult m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_is_result, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
